-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_temp" .f32 0x41A00000#32 ((268435456 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x2048 : Shape := ⟨2, ![256, 2048]⟩
abbrev S256 : Shape := ⟨1, ![256]⟩
abbrev S65536x2048 : Shape := ⟨2, ![65536, 2048]⟩
abbrev S65536 : Shape := ⟨1, ![65536]⟩
abbrev S_ : Shape := ⟨0, ![]⟩

class Facts : Prop where
  bcast_S_S256x2048 : S_.BroadcastsInDim S256x2048 (![] : Fin 0 → Fin S256x2048.rank)
  reducesTo_S256x2048_S_d0_1 : S256x2048.ReducesTo [0, 1] S_
  h_S_ : 0 < S_.numel
  bcast_S_S65536x2048 : S_.BroadcastsInDim S65536x2048 (![] : Fin 0 → Fin S65536x2048.rank)
  reducesTo_S65536x2048_S_d0_1 : S65536x2048.ReducesTo [0, 1] S_

variable [Facts]

def fn {F : FTy → Type} [FloatOps F] (main_arg0 : FVec F S256x2048 .f32) (main_arg1 : IVec S256 32) (main_arg2 : FVec F S65536x2048 .f32) (main_arg3 : IVec S65536 32) : IVec S_ 1 :=
  let main_v0 : FVec F S256x2048 .f32 := Host.absf main_arg0
  let main_cst : FVec F S_ .f32 := constant S_ .f32 0x7F800000#32
  let main_v1 : FVec F S256x2048 .f32 := broadcastInDim S256x2048 ![] bcast_S_S256x2048 main_cst
  let main_v2 : IVec S256x2048 1 := cmpf .olt main_v0 main_v1
  let main_c : IVec S_ 1 := constantI S_ 1 1#1
  let main_v3 : IVec S_ 1 := (fun x v => Host.reduce IntOp.andi x v reducesTo_S256x2048_S_d0_1 h_S_) main_v2 main_c
  let main_v4 : FVec F S65536x2048 .f32 := Host.absf main_arg2
  let main_cst_0 : FVec F S_ .f32 := constant S_ .f32 0x7F800000#32
  let main_v5 : FVec F S65536x2048 .f32 := broadcastInDim S65536x2048 ![] bcast_S_S65536x2048 main_cst_0
  let main_v6 : IVec S65536x2048 1 := cmpf .olt main_v4 main_v5
  let main_c_1 : IVec S_ 1 := constantI S_ 1 1#1
  let main_v7 : IVec S_ 1 := (fun x v => Host.reduce IntOp.andi x v reducesTo_S65536x2048_S_d0_1 h_S_) main_v6 main_c_1
  let main_v8 : IVec S_ 1 := andi main_v3 main_v7
  main_v8
-- ==== Kernel.lean ====
abbrev S256x2048 : Shape := ⟨2, ![256, 2048]⟩
abbrev S256 : Shape := ⟨1, ![256]⟩
abbrev S65536x2048 : Shape := ⟨2, ![65536, 2048]⟩
abbrev S65536 : Shape := ⟨1, ![65536]⟩
abbrev S_ : Shape := ⟨0, ![]⟩
abbrev S256x1 : Shape := ⟨2, ![256, 1]⟩
abbrev S256x65536 : Shape := ⟨2, ![256, 65536]⟩
abbrev S1024x2048 : Shape := ⟨2, ![1024, 2048]⟩
abbrev S256x1024 : Shape := ⟨2, ![256, 1024]⟩
abbrev S65536x256 : Shape := ⟨2, ![65536, 256]⟩
abbrev S8000x256 : Shape := ⟨2, ![8000, 256]⟩
abbrev S65536x1 : Shape := ⟨2, ![65536, 1]⟩
abbrev S8000 : Shape := ⟨1, ![8000]⟩
abbrev S8000x1 : Shape := ⟨2, ![8000, 1]⟩
abbrev S256x8000 : Shape := ⟨2, ![256, 8000]⟩
abbrev S1x8000 : Shape := ⟨2, ![1, 8000]⟩
abbrev S256x2 : Shape := ⟨2, ![256, 2]⟩

abbrev nBuf : Space → Nat
  | .hbm => 84
  | .vmem => 5
  | .smem => 0
  | _ => 0

abbrev bufTy : (tb : Table) → Fin (tcTables nBuf tb) → BufTy
  | .hbm, ⟨0, _⟩ => ⟨S256x2048, .f32⟩
  | .hbm, ⟨1, _⟩ => ⟨S256, .i32⟩
  | .hbm, ⟨2, _⟩ => ⟨S65536x2048, .f32⟩
  | .hbm, ⟨3, _⟩ => ⟨S65536, .i32⟩
  | .hbm, ⟨4, _⟩ => ⟨S256x2048, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S256x1, .f32⟩
  | .hbm, ⟨9, _⟩ => ⟨S256x2048, .f32⟩
  | .hbm, ⟨10, _⟩ => ⟨S256x2048, .f32⟩
  | .hbm, ⟨11, _⟩ => ⟨S256x65536, .f32⟩
  | .hbm, ⟨12, _⟩ => ⟨S65536x256, .f32⟩
  | .hbm, ⟨13, _⟩ => ⟨S_, .f32⟩
  | .hbm, ⟨14, _⟩ => ⟨S8000x256, .f32⟩
  | .hbm, ⟨15, _⟩ => ⟨S65536x1, .i32⟩
  | .hbm, ⟨16, _⟩ => ⟨S8000x256, .f32⟩
  | .hbm, ⟨17, _⟩ => ⟨S_, .f32⟩
  | .hbm, ⟨18, _⟩ => ⟨S65536, .f32⟩
  | .hbm, ⟨19, _⟩ => ⟨S_, .f32⟩
  | .hbm, ⟨20, _⟩ => ⟨S8000, .f32⟩
  | .hbm, ⟨21, _⟩ => ⟨S65536x1, .i32⟩
  | .hbm, ⟨22, _⟩ => ⟨S8000, .f32⟩
  | .hbm, ⟨23, _⟩ => ⟨S_, .f32⟩
  | .hbm, ⟨24, _⟩ => ⟨S8000, .f32⟩
  | .hbm, ⟨25, _⟩ => ⟨S8000, .i1⟩
  | .hbm, ⟨26, _⟩ => ⟨S_, .f32⟩
  | .hbm, ⟨27, _⟩ => ⟨S_, .f32⟩
  | .hbm, ⟨28, _⟩ => ⟨S8000, .f32⟩
  | .hbm, ⟨29, _⟩ => ⟨S8000, .f32⟩
  | .hbm, ⟨30, _⟩ => ⟨S8000x1, .f32⟩
  | .hbm, ⟨31, _⟩ => ⟨S8000x256, .f32⟩
  | .hbm, ⟨32, _⟩ => ⟨S8000x256, .f32⟩
  | .hbm, ⟨33, _⟩ => ⟨S256x8000, .f32⟩
  | .hbm, ⟨34, _⟩ => ⟨S256x8000, .f32⟩
  | .hbm, ⟨35, _⟩ => ⟨S1x8000, .i1⟩
  | .hbm, ⟨36, _⟩ => ⟨S1x8000, .f32⟩
  | .hbm, ⟨37, _⟩ => ⟨S256x8000, .f32⟩
  | .hbm, ⟨38, _⟩ => ⟨S256x8000, .f32⟩
  | .hbm, ⟨39, _⟩ => ⟨S_, .f32⟩
  | .hbm, ⟨40, _⟩ => ⟨S256, .f32⟩
  | .hbm, ⟨41, _⟩ => ⟨S256x1, .f32⟩
  | .hbm, ⟨42, _⟩ => ⟨S_, .f32⟩
  | .hbm, ⟨43, _⟩ => ⟨S256x1, .f32⟩
  | .hbm, ⟨44, _⟩ => ⟨S256x1, .f32⟩
  | .hbm, ⟨45, _⟩ => ⟨S256x8000, .f32⟩
  | .hbm, ⟨46, _⟩ => ⟨S256x8000, .f32⟩
  | .hbm, ⟨47, _⟩ => ⟨S_, .i32⟩
  | .hbm, ⟨48, _⟩ => ⟨S256, .i32⟩
  | .hbm, ⟨49, _⟩ => ⟨S256, .i1⟩
  | .hbm, ⟨50, _⟩ => ⟨S_, .i32⟩
  | .hbm, ⟨51, _⟩ => ⟨S256, .i32⟩
  | .hbm, ⟨52, _⟩ => ⟨S256, .i32⟩
  | .hbm, ⟨53, _⟩ => ⟨S256, .i32⟩
  | .hbm, ⟨54, _⟩ => ⟨S256x1, .i32⟩
  | .hbm, ⟨55, _⟩ => ⟨S256, .i32⟩
  | .hbm, ⟨56, _⟩ => ⟨S_, .f32⟩
  | .hbm, ⟨57, _⟩ => ⟨S256x8000, .f32⟩
  | .hbm, ⟨58, _⟩ => ⟨S256x8000, .f32⟩
  | .hbm, ⟨59, _⟩ => ⟨S256x8000, .f32⟩
  | .hbm, ⟨60, _⟩ => ⟨S256, .i32⟩
  | .hbm, ⟨61, _⟩ => ⟨S_, .i32⟩
  | .hbm, ⟨62, _⟩ => ⟨S256, .i32⟩
  | .hbm, ⟨63, _⟩ => ⟨S256, .i1⟩
  | .hbm, ⟨64, _⟩ => ⟨S_, .i32⟩
  | .hbm, ⟨65, _⟩ => ⟨S256, .i32⟩
  | .hbm, ⟨66, _⟩ => ⟨S256, .i32⟩
  | .hbm, ⟨67, _⟩ => ⟨S256, .i32⟩
  | .hbm, ⟨68, _⟩ => ⟨S_, .i32⟩
  | .hbm, ⟨69, _⟩ => ⟨S256, .i32⟩
  | .hbm, ⟨70, _⟩ => ⟨S256, .i1⟩
  | .hbm, ⟨71, _⟩ => ⟨S_, .i32⟩
  | .hbm, ⟨72, _⟩ => ⟨S256, .i32⟩
  | .hbm, ⟨73, _⟩ => ⟨S256, .i32⟩
  | .hbm, ⟨74, _⟩ => ⟨S256, .i32⟩
  | .hbm, ⟨75, _⟩ => ⟨S256x1, .i32⟩
  | .hbm, ⟨76, _⟩ => ⟨S256x1, .i32⟩
  | .hbm, ⟨77, _⟩ => ⟨S256x2, .i32⟩
  | .hbm, ⟨78, _⟩ => ⟨S256, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .local _ .vmem, ⟨0, _⟩ => ⟨S256x2048, .f32⟩
  | .local _ .vmem, ⟨1, _⟩ => ⟨S1024x2048, .f32⟩
  | .local _ .vmem, ⟨2, _⟩ => ⟨S1024x2048, .f32⟩
  | .local _ .vmem, ⟨3, _⟩ => ⟨S256x1024, .f32⟩
  | .local _ .vmem, ⟨4, _⟩ => ⟨S256x1024, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_call1_v0 : Ref sig .tc := ⟨.hbm, 27, rfl⟩
abbrev main_call1_v1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_8 : Ref sig .tc := ⟨.hbm, 61, rfl⟩
abbrev main_v41 : Ref sig .tc := ⟨.hbm, 62, rfl⟩
abbrev main_v42 : Ref sig .tc := ⟨.hbm, 63, rfl⟩
abbrev main_c_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_10 : Ref sig .tc := ⟨.hbm, 68, rfl⟩
abbrev main_v46 : Ref sig .tc := ⟨.hbm, 69, rfl⟩
abbrev main_v47 : Ref sig .tc := ⟨.hbm, 70, rfl⟩
abbrev main_c_11 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_v55 : Ref sig .tc := ⟨.hbm, 80, rfl⟩
abbrev main_cst_13 : Ref sig .tc := ⟨.hbm, 81, rfl⟩
abbrev main_v56 : Ref sig .tc := ⟨.hbm, 82, rfl⟩
abbrev main_v57 : Ref sig .tc := ⟨.hbm, 83, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  reducesTo_S256x2048_S256_d1 : S256x2048.ReducesTo [1] S256
  h_S_ : 0 < S_.numel
  bcast_S256_S256x1_0 : S256.BroadcastsInDim S256x1 (![0] : Fin 1 → Fin S256x1.rank)
  bcast_S256x1_S256x2048_0_1 : S256x1.BroadcastsInDim S256x2048 (![0, 1] : Fin 2 → Fin S256x2048.rank)
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  inb_S256x1024_S256x1024_0_0 : ∀ a, (![0, 0] : Fin 2 → Nat) a + S256x1024.size a ≤ S256x1024.size a
  h_S256x1024 : 0 < S256x1024.numel
  transposes_S256x65536_S65536x256_1_0 : S256x65536.Transposes [1, 0] S65536x256
  bcast_S_S8000x256 : S_.BroadcastsInDim S8000x256 (![] : Fin 0 → Fin S8000x256.rank)
  bcast_S65536_S65536x1_0 : S65536.BroadcastsInDim S65536x1 (![0] : Fin 1 → Fin S65536x1.rank)
  bcast_S_S65536 : S_.BroadcastsInDim S65536 (![] : Fin 0 → Fin S65536.rank)
  bcast_S_S8000 : S_.BroadcastsInDim S8000 (![] : Fin 0 → Fin S8000.rank)
  bcast_S8000_S8000x1_0 : S8000.BroadcastsInDim S8000x1 (![0] : Fin 1 → Fin S8000x1.rank)
  bcast_S8000x1_S8000x256_0_1 : S8000x1.BroadcastsInDim S8000x256 (![0, 1] : Fin 2 → Fin S8000x256.rank)
  transposes_S8000x256_S256x8000_1_0 : S8000x256.Transposes [1, 0] S256x8000
  bcast_S8000_S1x8000_1 : S8000.BroadcastsInDim S1x8000 (![1] : Fin 1 → Fin S1x8000.rank)
  bcast_S1x8000_S256x8000_0_1 : S1x8000.BroadcastsInDim S256x8000 (![0, 1] : Fin 2 → Fin S256x8000.rank)
  reducesTo_S256x8000_S256_d1 : S256x8000.ReducesTo [1] S256
  bcast_S_S256x1 : S_.BroadcastsInDim S256x1 (![] : Fin 0 → Fin S256x1.rank)
  bcast_S256x1_S256x8000_0_1 : S256x1.BroadcastsInDim S256x8000 (![0, 1] : Fin 2 → Fin S256x8000.rank)
  bcast_S_S256 : S_.BroadcastsInDim S256 (![] : Fin 0 → Fin S256.rank)
  bcast_S_S256x8000 : S_.BroadcastsInDim S256x8000 (![] : Fin 0 → Fin S256x8000.rank)
  concatenates_S256x1_S256x1_S256x2_d1 : Shape.Concatenates [S256x1, S256x1] S256x2 1
  reducesTo_S256_S_d0 : S256.ReducesTo [0] S_
  dot_S256x2048_S1024x2048_S256x1024_1_1_0_0_n_n_wf : DotDims.WF S256x2048 S1024x2048 S256x1024 [1] [1] [0] [0] [] []
  scatter_S8000x256_S65536x1_S65536x256_1_0_0_1_wf : ScatterDims.WF S8000x256 S65536x1 S65536x256 [1] [0] [0] 1
  scatter_S8000_S65536x1_S65536_n_0_0_1_wf : ScatterDims.WF S8000 S65536x1 S65536 [] [0] [0] 1
  gather_S65536_S256x1_S256_n_0_n_n_0_1_1_wf : GatherDims.WF S65536 S256x1 S256 [] [0] [] [0] [] 1 ![1]
  gather_S256x8000_S256x2_S256_n_01_n_n_01_1_11_wf : GatherDims.WF S256x8000 S256x2 S256 [] [0, 1] [] [0, 1] [] 1 ![1, 1]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S256x2048.size a
  hwx0_0 : ∀ i : grid0.Coords, EltTy.bits .f32 = 32 ∨ (Rect.block (s := S256x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S65536x2048.size a
  hwx0_1 : ∀ i : grid0.Coords, EltTy.bits .f32 = 32 ∨ (Rect.block (s := S65536x2048) S1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S256x65536.size a
  hwx0_2 : ∀ i : grid0.Coords, EltTy.bits .f32 = 32 ∨ (Rect.block (s := S256x65536) S256x1024.size (cc0_transform_2 i) (hinb0_2 i)).WholeWords (EltTy.packing .f32)

variable [Facts₀]

def dot_S256x2048_S1024x2048_S256x1024_1_1_0_0_n_n : DotDims S256x2048 S1024x2048 S256x1024 where
  lhsContracting := [1]
  rhsContracting := [1]
  lhsNonContracting := [0]
  rhsNonContracting := [0]
  lhsBatch := []
  rhsBatch := []
  wf := dot_S256x2048_S1024x2048_S256x1024_1_1_0_0_n_n_wf
def scatter_S8000x256_S65536x1_S65536x256_1_0_0_1 : ScatterDims S8000x256 S65536x1 S65536x256 where
  updateWindowDims := [1]
  insertedWindowDims := [0]
  scatterDimsToOperandDims := [0]
  indexVectorDim := 1
  wf := scatter_S8000x256_S65536x1_S65536x256_1_0_0_1_wf
def scatter_S8000_S65536x1_S65536_n_0_0_1 : ScatterDims S8000 S65536x1 S65536 where
  updateWindowDims := []
  insertedWindowDims := [0]
  scatterDimsToOperandDims := [0]
  indexVectorDim := 1
  wf := scatter_S8000_S65536x1_S65536_n_0_0_1_wf
def gather_S65536_S256x1_S256_n_0_n_n_0_1_1 : GatherDims S65536 S256x1 S256 where
  offsetDims := []
  collapsedSliceDims := [0]
  operandBatchingDims := []
  startIndicesBatchingDims := []
  startIndexMap := [0]
  indexVectorDim := 1
  sliceSizes := ![1]
  wf := gather_S65536_S256x1_S256_n_0_n_n_0_1_1_wf
def gather_S256x8000_S256x2_S256_n_01_n_n_01_1_11 : GatherDims S256x8000 S256x2 S256 where
  offsetDims := []
  collapsedSliceDims := [0, 1]
  operandBatchingDims := []
  startIndicesBatchingDims := []
  startIndexMap := [0, 1]
  indexVectorDim := 1
  sliceSizes := ![1, 1]
  wf := gather_S256x8000_S256x2_S256_n_01_n_n_01_1_11_wf

abbrev win0_0 : Pipeline.Window sig grid0 :=
  Pipeline.Window.ofSpec (Memref.whole main_v2) S256x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S256x2048 : Shape := ⟨2, ![256, 2048]⟩
abbrev S256 : Shape := ⟨1, ![256]⟩
abbrev S65536x2048 : Shape := ⟨2, ![65536, 2048]⟩
abbrev S65536 : Shape := ⟨1, ![65536]⟩
abbrev S_ : Shape := ⟨0, ![]⟩
abbrev S256x1 : Shape := ⟨2, ![256, 1]⟩
abbrev S2048x65536 : Shape := ⟨2, ![2048, 65536]⟩
abbrev S256x65536 : Shape := ⟨2, ![256, 65536]⟩
abbrev S65536x256 : Shape := ⟨2, ![65536, 256]⟩
abbrev S8000x256 : Shape := ⟨2, ![8000, 256]⟩
abbrev S65536x1 : Shape := ⟨2, ![65536, 1]⟩
abbrev S8000 : Shape := ⟨1, ![8000]⟩
abbrev S8000x1 : Shape := ⟨2, ![8000, 1]⟩
abbrev S256x8000 : Shape := ⟨2, ![256, 8000]⟩
abbrev S1x8000 : Shape := ⟨2, ![1, 8000]⟩
abbrev S256x2 : Shape := ⟨2, ![256, 2]⟩

abbrev nBuf : Space → Nat
  | .hbm => 88
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256, .i32⟩
  | .hbm, ⟨2, _⟩ => ⟨S65536x2048, .f32⟩
  | .hbm, ⟨3, _⟩ => ⟨S65536, .i32⟩
  | .hbm, ⟨4, _⟩ => ⟨S256x2048, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S256x1, .f32⟩
  | .hbm, ⟨9, _⟩ => ⟨S256x2048, .f32⟩
  | .hbm, ⟨10, _⟩ => ⟨S256x2048, .f32⟩
  | .hbm, ⟨11, _⟩ => ⟨S2048x65536, .f32⟩
  | .hbm, ⟨12, _⟩ => ⟨S256x65536, .f32⟩
  | .hbm, ⟨13, _⟩ => ⟨S_, .f32⟩
  | .hbm, ⟨14, _⟩ => ⟨S256x65536, .f32⟩
  | .hbm, ⟨15, _⟩ => ⟨S256x65536, .f32⟩
  | .hbm, ⟨16, _⟩ => ⟨S65536x256, .f32⟩
  | .hbm, ⟨17, _⟩ => ⟨S_, .f32⟩
  | .hbm, ⟨18, _⟩ => ⟨S8000x256, .f32⟩
  | .hbm, ⟨19, _⟩ => ⟨S65536x1, .i32⟩
  | .hbm, ⟨20, _⟩ => ⟨S8000x256, .f32⟩
  | .hbm, ⟨21, _⟩ => ⟨S_, .f32⟩
  | .hbm, ⟨22, _⟩ => ⟨S65536, .f32⟩
  | .hbm, ⟨23, _⟩ => ⟨S_, .f32⟩
  | .hbm, ⟨24, _⟩ => ⟨S8000, .f32⟩
  | .hbm, ⟨25, _⟩ => ⟨S65536x1, .i32⟩
  | .hbm, ⟨26, _⟩ => ⟨S8000, .f32⟩
  | .hbm, ⟨27, _⟩ => ⟨S_, .f32⟩
  | .hbm, ⟨28, _⟩ => ⟨S8000, .f32⟩
  | .hbm, ⟨29, _⟩ => ⟨S8000, .i1⟩
  | .hbm, ⟨30, _⟩ => ⟨S_, .f32⟩
  | .hbm, ⟨31, _⟩ => ⟨S_, .f32⟩
  | .hbm, ⟨32, _⟩ => ⟨S8000, .f32⟩
  | .hbm, ⟨33, _⟩ => ⟨S8000, .f32⟩
  | .hbm, ⟨34, _⟩ => ⟨S8000x1, .f32⟩
  | .hbm, ⟨35, _⟩ => ⟨S8000x256, .f32⟩
  | .hbm, ⟨36, _⟩ => ⟨S8000x256, .f32⟩
  | .hbm, ⟨37, _⟩ => ⟨S256x8000, .f32⟩
  | .hbm, ⟨38, _⟩ => ⟨S256x8000, .f32⟩
  | .hbm, ⟨39, _⟩ => ⟨S1x8000, .i1⟩
  | .hbm, ⟨40, _⟩ => ⟨S1x8000, .f32⟩
  | .hbm, ⟨41, _⟩ => ⟨S256x8000, .f32⟩
  | .hbm, ⟨42, _⟩ => ⟨S256x8000, .f32⟩
  | .hbm, ⟨43, _⟩ => ⟨S_, .f32⟩
  | .hbm, ⟨44, _⟩ => ⟨S256, .f32⟩
  | .hbm, ⟨45, _⟩ => ⟨S256x1, .f32⟩
  | .hbm, ⟨46, _⟩ => ⟨S_, .f32⟩
  | .hbm, ⟨47, _⟩ => ⟨S256x1, .f32⟩
  | .hbm, ⟨48, _⟩ => ⟨S256x1, .f32⟩
  | .hbm, ⟨49, _⟩ => ⟨S256x8000, .f32⟩
  | .hbm, ⟨50, _⟩ => ⟨S256x8000, .f32⟩
  | .hbm, ⟨51, _⟩ => ⟨S_, .i32⟩
  | .hbm, ⟨52, _⟩ => ⟨S256, .i32⟩
  | .hbm, ⟨53, _⟩ => ⟨S256, .i1⟩
  | .hbm, ⟨54, _⟩ => ⟨S_, .i32⟩
  | .hbm, ⟨55, _⟩ => ⟨S256, .i32⟩
  | .hbm, ⟨56, _⟩ => ⟨S256, .i32⟩
  | .hbm, ⟨57, _⟩ => ⟨S256, .i32⟩
  | .hbm, ⟨58, _⟩ => ⟨S256x1, .i32⟩
  | .hbm, ⟨59, _⟩ => ⟨S256, .i32⟩
  | .hbm, ⟨60, _⟩ => ⟨S_, .f32⟩
  | .hbm, ⟨61, _⟩ => ⟨S256x8000, .f32⟩
  | .hbm, ⟨62, _⟩ => ⟨S256x8000, .f32⟩
  | .hbm, ⟨63, _⟩ => ⟨S256x8000, .f32⟩
  | .hbm, ⟨64, _⟩ => ⟨S256, .i32⟩
  | .hbm, ⟨65, _⟩ => ⟨S_, .i32⟩
  | .hbm, ⟨66, _⟩ => ⟨S256, .i32⟩
  | .hbm, ⟨67, _⟩ => ⟨S256, .i1⟩
  | .hbm, ⟨68, _⟩ => ⟨S_, .i32⟩
  | .hbm, ⟨69, _⟩ => ⟨S256, .i32⟩
  | .hbm, ⟨70, _⟩ => ⟨S256, .i32⟩
  | .hbm, ⟨71, _⟩ => ⟨S256, .i32⟩
  | .hbm, ⟨72, _⟩ => ⟨S_, .i32⟩
  | .hbm, ⟨73, _⟩ => ⟨S256, .i32⟩
  | .hbm, ⟨74, _⟩ => ⟨S256, .i1⟩
  | .hbm, ⟨75, _⟩ => ⟨S_, .i32⟩
  | .hbm, ⟨76, _⟩ => ⟨S256, .i32⟩
  | .hbm, ⟨77, _⟩ => ⟨S256, .i32⟩
  | .hbm, ⟨78, _⟩ => ⟨S256, .i32⟩
  | .hbm, ⟨79, _⟩ => ⟨S256x1, .i32⟩
  | .hbm, ⟨80, _⟩ => ⟨S256x1, .i32⟩
  | .hbm, ⟨81, _⟩ => ⟨S256x2, .i32⟩
  | .hbm, ⟨82, _⟩ => ⟨S256, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_call1_v0 : Ref sig .tc := ⟨.hbm, 31, rfl⟩
abbrev main_call1_v1 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_9 : Ref sig .tc := ⟨.hbm, 65, rfl⟩
abbrev main_v44 : Ref sig .tc := ⟨.hbm, 66, rfl⟩
abbrev main_v45 : Ref sig .tc := ⟨.hbm, 67, rfl⟩
abbrev main_c_10 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_c_11 : Ref sig .tc := ⟨.hbm, 72, rfl⟩
abbrev main_v49 : Ref sig .tc := ⟨.hbm, 73, rfl⟩
abbrev main_v50 : Ref sig .tc := ⟨.hbm, 74, rfl⟩
abbrev main_c_12 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_13 : Ref sig .tc := ⟨.hbm, 83, rfl⟩
abbrev main_v58 : Ref sig .tc := ⟨.hbm, 84, rfl⟩
abbrev main_cst_14 : Ref sig .tc := ⟨.hbm, 85, rfl⟩
abbrev main_v59 : Ref sig .tc := ⟨.hbm, 86, rfl⟩
abbrev main_v60 : Ref sig .tc := ⟨.hbm, 87, rfl⟩

abbrev nD : Nat := 1
abbrev τ : Topo := Topo.v7x

variable {F : FTy → Type} [FloatOps F]

class Facts₀ : Prop where
  reducesTo_S256x2048_S256_d1 : S256x2048.ReducesTo [1] S256
  h_S_ : 0 < S_.numel
  bcast_S256_S256x1_0 : S256.BroadcastsInDim S256x1 (![0] : Fin 1 → Fin S256x1.rank)
  bcast_S256x1_S256x2048_0_1 : S256x1.BroadcastsInDim S256x2048 (![0, 1] : Fin 2 → Fin S256x2048.rank)
  transposes_S65536x2048_S2048x65536_1_0 : S65536x2048.Transposes [1, 0] S2048x65536
  bcast_S_S256x65536 : S_.BroadcastsInDim S256x65536 (![] : Fin 0 → Fin S256x65536.rank)
  transposes_S256x65536_S65536x256_1_0 : S256x65536.Transposes [1, 0] S65536x256
  bcast_S_S8000x256 : S_.BroadcastsInDim S8000x256 (![] : Fin 0 → Fin S8000x256.rank)
  bcast_S65536_S65536x1_0 : S65536.BroadcastsInDim S65536x1 (![0] : Fin 1 → Fin S65536x1.rank)
  bcast_S_S65536 : S_.BroadcastsInDim S65536 (![] : Fin 0 → Fin S65536.rank)
  bcast_S_S8000 : S_.BroadcastsInDim S8000 (![] : Fin 0 → Fin S8000.rank)
  bcast_S8000_S8000x1_0 : S8000.BroadcastsInDim S8000x1 (![0] : Fin 1 → Fin S8000x1.rank)
  bcast_S8000x1_S8000x256_0_1 : S8000x1.BroadcastsInDim S8000x256 (![0, 1] : Fin 2 → Fin S8000x256.rank)
  transposes_S8000x256_S256x8000_1_0 : S8000x256.Transposes [1, 0] S256x8000
  bcast_S8000_S1x8000_1 : S8000.BroadcastsInDim S1x8000 (![1] : Fin 1 → Fin S1x8000.rank)
  bcast_S1x8000_S256x8000_0_1 : S1x8000.BroadcastsInDim S256x8000 (![0, 1] : Fin 2 → Fin S256x8000.rank)
  reducesTo_S256x8000_S256_d1 : S256x8000.ReducesTo [1] S256
  bcast_S_S256x1 : S_.BroadcastsInDim S256x1 (![] : Fin 0 → Fin S256x1.rank)
  bcast_S256x1_S256x8000_0_1 : S256x1.BroadcastsInDim S256x8000 (![0, 1] : Fin 2 → Fin S256x8000.rank)
  bcast_S_S256 : S_.BroadcastsInDim S256 (![] : Fin 0 → Fin S256.rank)
  bcast_S_S256x8000 : S_.BroadcastsInDim S256x8000 (![] : Fin 0 → Fin S256x8000.rank)
  concatenates_S256x1_S256x1_S256x2_d1 : Shape.Concatenates [S256x1, S256x1] S256x2 1
  reducesTo_S256_S_d0 : S256.ReducesTo [0] S_
  dot_S256x2048_S2048x65536_S256x65536_1_0_0_1_n_n_wf : DotDims.WF S256x2048 S2048x65536 S256x65536 [1] [0] [0] [1] [] []
  scatter_S8000x256_S65536x1_S65536x256_1_0_0_1_wf : ScatterDims.WF S8000x256 S65536x1 S65536x256 [1] [0] [0] 1
  scatter_S8000_S65536x1_S65536_n_0_0_1_wf : ScatterDims.WF S8000 S65536x1 S65536 [] [0] [0] 1
  gather_S65536_S256x1_S256_n_0_n_n_0_1_1_wf : GatherDims.WF S65536 S256x1 S256 [] [0] [] [0] [] 1 ![1]
  gather_S256x8000_S256x2_S256_n_01_n_n_01_1_11_wf : GatherDims.WF S256x8000 S256x2 S256 [] [0, 1] [] [0, 1] [] 1 ![1, 1]

variable [Facts₀]

def dot_S256x2048_S2048x65536_S256x65536_1_0_0_1_n_n : DotDims S256x2048 S2048x65536 S256x65536 where
  lhsContracting := [1]
  rhsContracting := [0]
  lhsNonContracting := [0]
  rhsNonContracting := [1]
  lhsBatch := []
  rhsBatch := []
  wf := dot_S256x2048_S2048x65536_S256x65536_1_0_0_1_n_n_wf
def scatter_S8000x256_S65536x1_S65536x256_1_0_0_1 : ScatterDims S8000x256 S65536x1 S65536x256 where
  updateWindowDims := [1]
  insertedWindowDims := [0]
  scatterDimsToOperandDims := [0]
  indexVectorDim := 1
  wf := scatter_S8000x256_S65536x1_S65536x256_1_0_0_1_wf
def scatter_S8000_S65536x1_S65536_n_0_0_1 : ScatterDims S8000 S65536x1 S65536 where
  updateWindowDims := []
  insertedWindowDims := [0]
  scatterDimsToOperandDims := [0]
  indexVectorDim := 1
  wf := scatter_S8000_S65536x1_S65536_n_0_0_1_wf
def gather_S65536_S256x1_S256_n_0_n_n_0_1_1 : GatherDims S65536 S256x1 S256 where
  offsetDims := []
  collapsedSliceDims := [0]
  operandBatchingDims := []
  startIndicesBatchingDims := []
  startIndexMap := [0]
  indexVectorDim := 1
  sliceSizes := ![1]
  wf := gather_S65536_S256x1_S256_n_0_n_n_0_1_1_wf
def gather_S256x8000_S256x2_S256_n_01_n_n_01_1_11 : GatherDims S256x8000 S256x2 S256 where
  offsetDims := []
  collapsedSliceDims := [0, 1]
  operandBatchingDims := []
  startIndicesBatchingDims := []
  startIndexMap := [0, 1]
  indexVectorDim := 1
  sliceSizes := ![1, 1]
  wf := gather_S256x8000_S256x2_S256_n_01_n_n_01_1_11_wf

class Facts : Prop extends Facts₀ where

variable [Facts]
-- ==== Proof.KernelFrame.lean ====
import proofs.«145166_j8186207666549_1_alg».proof.Proof.Gen.Kernel.Launch
import proofs.«145166_j8186207666549_1_alg».proof.Proof.Gen.Kernel.Skeleton
import proofs.«145166_j8186207666549_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-!
  The frame of the program: normalisation of the batch on the host, ONE pipelined region over the 64 tiles of the
  memory bank (each point multiplies the resident 256 x 2048 batch by a 1024 x 2048 tile of the bank, transposed, and
  scales the 256 x 1024 product), then the host lines that reduce the logits by label and take the loss.

  The region's body loads its two input blocks whole, stores the whole output block once, and keeps nothing between
  points; so the proof data name, after each point, the inputs' staging buffers at their blocks and the output's at the
  one stored value. The lines after the region read the logits and the integer arguments and write only buffers of
  their own, so every argument array ends as launched.
-/

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- The buffers' contents when the region is entered: the launch contents after the seven host lines that normalise
    the batch (the row norms, then the quotient). -/
abbrev V0 (c : Dev nD) : Valuation τ sig (Elt F) := StableHlo.after (List.flatten [hostOps0, hostOps0_1]) (fun b => m (c, b))
/-- The same, read at a TensorCore reference. -/
abbrev V (c : Dev nD) (b : Ref sig .tc) : Buf (Elt F) ((c : Thread nD τ).loc b) := V0 m c (Proc.devRef .tc b)

/-- No host line allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- The lines after the region, stretch by stretch. -/
abbrev tailOps : List (List (HloOp τ sig (Elt F))) := [hostOps1, hostOps1_1, hostOps1_2]

set_option maxHeartbeats 4000000 in
/-- @main is the lines before the region, the region, the lines after it: it reduces to the region continued by the
    later lines, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [hostOps0, hostOps0_1] [hostOps1, hostOps1_1, hostOps1_2]
    (by simp only [List.Forall]; exact ⟨hostOps0_sub, hostOps0_1_sub⟩)
    (by simp only [List.Forall]; exact ⟨hostOps0_fresh, hostOps0_1_fresh⟩) main_chain

/-- The later lines touch only unscoped TensorCore buffers: the pipeline's arrays and the buffers that bypass it. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- They allocate nothing. -/
theorem tail_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- Each later line writes its own result buffer, which is none of the pipeline's three arrays (the normalised batch, the
    bank, the logits). -/
theorem hostOps1_keeps : (hostOps1 : List (HloOp τ sig (Elt F))).Forall fun op =>
    ∀ w, Proc.devRef .tc (Pipeline.arrRef spec0 w) ∉ op.writes := by
  simp only [hostOps1, List.Forall]
  repeat' apply And.intro
  all_goals intro w; fin_cases w <;> simp only [StableHlo.nullary_writes, StableHlo.unary_writes, StableHlo.binary_writes, StableHlo.ternary_writes, Finset.mem_singleton] <;> exact StableHlo.devRef_ne_of_ne (by decide)
theorem hostOps1_1_keeps : (hostOps1_1 : List (HloOp τ sig (Elt F))).Forall fun op =>
    ∀ w, Proc.devRef .tc (Pipeline.arrRef spec0 w) ∉ op.writes := by
  simp only [hostOps1_1, List.Forall]
  repeat' apply And.intro
  all_goals intro w; fin_cases w <;> simp only [StableHlo.nullary_writes, StableHlo.unary_writes, StableHlo.binary_writes, StableHlo.ternary_writes, Finset.mem_singleton] <;> exact StableHlo.devRef_ne_of_ne (by decide)
set_option maxHeartbeats 2000000 in
theorem hostOps1_2_keeps : (hostOps1_2 : List (HloOp τ sig (Elt F))).Forall fun op =>
    ∀ w, Proc.devRef .tc (Pipeline.arrRef spec0 w) ∉ op.writes := by
  simp only [hostOps1_2, List.Forall]
  repeat' apply And.intro
  all_goals intro w; fin_cases w <;> simp only [StableHlo.nullary_writes, StableHlo.unary_writes, StableHlo.binary_writes, StableHlo.ternary_writes, Finset.mem_singleton] <;> exact StableHlo.devRef_ne_of_ne (by decide)

theorem tail_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl
  · exact (List.forall_iff_forall_mem.mp hostOps1_keeps) op hop
  · exact (List.forall_iff_forall_mem.mp hostOps1_1_keeps) op hop
  · exact (List.forall_iff_forall_mem.mp hostOps1_2_keeps) op hop

/-! ## The arguments are written by no host line -/

/-- A reference none of the lines before the region writes is found by the region as launched. -/
theorem V_of_unwritten (c : Dev nD) (b : Ref sig .tc)
    (h : (List.flatten [hostOps0, hostOps0_1] : List (HloOp τ sig (Elt F))).Forall fun op => Proc.devRef .tc b ∉ op.writes) :
    V m c b = m ((c : Thread nD τ).loc b) :=
  StableHlo.after_of_forall_not_mem (b := Proc.devRef .tc b) _ _ (List.forall_iff_forall_mem.mp h)

theorem prefix_keeps_arg (b : Ref sig .tc) (hb : b = main_arg0 ∨ b = main_arg1 ∨ b = main_arg2 ∨ b = main_arg3) :
    (List.flatten [hostOps0, hostOps0_1] : List (HloOp τ sig (Elt F))).Forall fun op => Proc.devRef .tc b ∉ op.writes := by
  simp only [hostOps0, hostOps0_1, List.flatten_cons, List.flatten_nil, List.append_nil, List.cons_append,
    List.nil_append, List.Forall, StableHlo.nullary_writes, StableHlo.unary_writes, StableHlo.binary_writes, StableHlo.ternary_writes, Finset.mem_singleton]
  rcases hb with rfl | rfl | rfl | rfl
  all_goals (repeat' apply And.intro)
  all_goals exact StableHlo.devRef_ne_of_ne (by decide)

theorem V_main_arg0 (c : Dev nD) : V m c main_arg0 = m ((c : Thread nD τ).loc main_arg0) :=
  V_of_unwritten m c main_arg0 (prefix_keeps_arg main_arg0 (.inl rfl))
theorem V_main_arg1 (c : Dev nD) : V m c main_arg1 = m ((c : Thread nD τ).loc main_arg1) :=
  V_of_unwritten m c main_arg1 (prefix_keeps_arg main_arg1 (.inr (.inl rfl)))
theorem V_main_arg2 (c : Dev nD) : V m c main_arg2 = m ((c : Thread nD τ).loc main_arg2) :=
  V_of_unwritten m c main_arg2 (prefix_keeps_arg main_arg2 (.inr (.inr (.inl rfl))))
theorem V_main_arg3 (c : Dev nD) : V m c main_arg3 = m ((c : Thread nD τ).loc main_arg3) :=
  V_of_unwritten m c main_arg3 (prefix_keeps_arg main_arg3 (.inr (.inr (.inr rfl))))

set_option maxHeartbeats 4000000 in
theorem tail_keeps_arg (b : Ref sig .tc) (hb : b = main_arg0 ∨ b = main_arg1 ∨ b = main_arg2 ∨ b = main_arg3) :
    (List.flatten (tailOps : List (List (HloOp τ sig (Elt F))))).Forall fun op => Proc.devRef .tc b ∉ op.writes := by
  simp only [tailOps, hostOps1, hostOps1_1, hostOps1_2, List.flatten_cons, List.flatten_nil, List.append_nil, List.cons_append,
    List.nil_append, List.Forall, StableHlo.nullary_writes, StableHlo.unary_writes, StableHlo.binary_writes, StableHlo.ternary_writes, Finset.mem_singleton]
  rcases hb with rfl | rfl | rfl | rfl
  all_goals (repeat' apply And.intro)
  all_goals exact StableHlo.devRef_ne_of_ne (by decide)

/-- What a buffer holds after the lines that follow the region, for proof data `dats`. -/
abbrev afterTail (dats : (p : Fin 1) → (c : Dev nD) → Dat τ (Elt F) Unit ℕ (UR sig nD τ) ℕ (cfgs p) c) (c : Dev nD) (b : Ref sig .tc) :=
  Pipeline.afterTail₀ cfgs dats 0 (V0 m) tailOps c b

/-- An argument the region stages no window of, and no later line writes, ends as launched. -/
theorem afterTail_of_unwritten (dats : (p : Fin 1) → (c : Dev nD) → Dat τ (Elt F) Unit ℕ (UR sig nD τ) ℕ (cfgs p) c) (c : Dev nD)
    (b : Ref sig .tc) (hb : b = main_arg0 ∨ b = main_arg1 ∨ b = main_arg2 ∨ b = main_arg3) (hw : ∀ w, Pipeline.arrRef spec0 w ≠ b) :
    afterTail m dats c b = m ((c : Thread nD τ).loc b) := by
  unfold afterTail Pipeline.afterTail₀
  rw [StableHlo.after_of_forall_not_mem (b := Proc.devRef .tc b) _ _ (List.forall_iff_forall_mem.mp (tail_keeps_arg b hb)),
    Pipeline.withArrays_of_ne _ c (V0 m c) _ b hw]
  exact V_of_unwritten m c b (prefix_keeps_arg b hb)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The batch's staging buffer holds the whole normalised batch at every point (it is fetched once; its block index never
    moves), for any proof data whose array is the region-entry one and whose body leaves the block in place. -/
theorem before_batch_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The bank's current staging buffer holds tile `t` of the bank at point `t` (fetched at every point). -/
theorem before_bank_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body -/

abbrev rBatch : Rect S256x2048 := Rect.unit (s := S256x2048) ![0, 0] S256x2048.size inb_S256x2048_S256x2048_0_0
abbrev rTile : Rect S1024x2048 := Rect.unit (s := S1024x2048) ![0, 0] S1024x2048.size inb_S1024x2048_S1024x2048_0_0
abbrev rOut : Rect S256x1024 := Rect.unit (s := S256x1024) ![0, 0] S256x1024.size inb_S256x1024_S256x1024_0_0

/-- What the body leaves in the output block's buffer, from the two input blocks: its one store, of the scaled product. -/
def outBlock (x0 : Vec F S256x2048 .f32) (x1 : Vec F S1024x2048 .f32) : Vec F S256x1024 .f32 :=
  View.canon [⟨rOut, k0_pay1 (View.ld x0 rBatch) (View.ld x1 rTile)⟩]

/-- The one store covers the block. -/
theorem cover_out (p0 : Vec F S256x1024 .f32) (y : S256x1024.Idx) :
    ∃ pc ∈ ([⟨rOut, p0⟩] : List (View.Piece (Elt F) S256x1024 .f32)), y ∈ pc.1.set :=
  View.cover_of_tiled [⟨rOut, p0⟩] S256x1024.size (by rfl) y

set_option maxHeartbeats 1000000 in
/-- The body on whole staging buffers, the inputs' at contents `x0`, `x1` and the output's at anything, runs to its end
    holding the inputs' as they were and the output's at `outBlock x0 x1`. -/
theorem sound_kernel (c : Dev nD) (E : Set ℕ) (i : grid0.Coords) (arg1 : Memref sig .tc .vmem S256x2048 .f32) (harg1 : arg1.IsWhole) (arg2 : Memref sig .tc .vmem S1024x2048 .f32) (harg2 : arg2.IsWhole) (arg3 : Memref sig .tc .vmem S256x1024 .f32) (harg3 : arg3.IsWhole)
    (x0 : Vec F S256x2048 .f32) (x1 : Vec F S1024x2048 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outBlock x0 x1)) -∗ K ⟨⟩))
      ⊢ wp frame (wpE (defs₀ (F := F)) Variants.none c none) E (cc0__logits_kernel i arg1 harg1 arg2 harg2 arg3 harg3) K := by
  simp only [cc0__logits_kernel_eq_skeleton]; unfold cc0__logits_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The proof data -/

/-- The proof data of the pipeline on core `c`: the arrays as the region finds them; after the body at point `t` each
    input's buffer at its block and the output's at `outBlock` of the two; the invariant the scoped rest, untouched;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_batch (c : Dev nD) (t : Fin cfg0.N) : (dats m 0 c).after 0 t = iblk m c 0 t := by dsimp only [dats]
theorem after_bank (c : Dev nD) (t : Fin cfg0.N) : (dats m 0 c).after 1 t = iblk m c 1 t := by dsimp only [dats]
theorem after_out (c : Dev nD) (t : Fin cfg0.N) : (dats m 0 c).after 2 t = outBlock (iblk m c 0 t) (iblk m c 1 t) := by dsimp only [dats]

theorem before_batch (c : Dev nD) (t : Fin cfg0.N) (d) : (dats m 0 c).before 0 t d = iblk m c 0 t :=
  before_batch_of m (dats m 0 c) (A_eq m c 0) (after_batch m c) t d
theorem before_bank (c : Dev nD) (t : Fin cfg0.N) (d) : (dats m 0 c).before 1 t d = iblk m c 1 t :=
  before_bank_of m (dats m 0 c) (A_eq m c 1) (after_bank m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_batch, before_bank]
  rw [show (dats m 0 c).Φ t.succ = (dats m 0 c).Φ t.castSucc from rfl,
    show (dats m 0 c).owesAt () t.succ = (dats m 0 c).owesAt () t.castSucc from rfl,
    after_batch, after_bank, after_out]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option maxHeartbeats 4000000 in
set_option backward.isDefEq.respectTransparency.types false in
/-- From any memory with zero counters every weakly fair execution of @main terminates without a fault, each array of
    the pipeline ending at what the proof data compute and every other unscoped buffer as the later lines leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hΦ := fun _ _ => rfl)

/-- THE FRAME: the run ends with every argument array as launched — the bank by the pipeline's own account of an input's
    array, the other three because no window stages them and no later line writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
      ((h c).2 main_arg0 (Pipeline.mem_restRefs_of main_arg0 (by decide) (by decide))).trans
        (afterTail_of_unwritten m (dats m) c main_arg0 (.inl rfl) (by decide)),
      ((h c).2 main_arg1 (Pipeline.mem_restRefs_of main_arg1 (by decide) (by decide))).trans
        (afterTail_of_unwritten m (dats m) c main_arg1 (.inr (.inl rfl)) (by decide)),
      ((h c).1 1).trans (((dats m 0 c).arrAt_in 1 rfl _).trans ((A_eq m c 1).trans (V_main_arg2 m c))),
      ((h c).2 main_arg3 (Pipeline.mem_restRefs_of main_arg3 (by decide) (by decide))).trans
        (afterTail_of_unwritten m (dats m) c main_arg3 (.inr (.inr (.inr rfl))) (by decide))⟩) (run_main m ρ)

end Cert.Kernel.Frame

end
-- ==== Proof.KernelIdealFrame.lean ====
import proofs.«145166_j8186207666549_1_alg».proof.Proof.Gen.KernelIdeal.Launch
import proofs.«145166_j8186207666549_1_alg».proof.Proof.Gen.KernelIdeal.Skeleton
import proofs.«145166_j8186207666549_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-!
  The frame of the program: normalisation of the batch on the host, ONE pipelined region over the 64 tiles of the
  memory bank (each point multiplies the resident 256 x 2048 batch by a 1024 x 2048 tile of the bank, transposed, and
  scales the 256 x 1024 product), then the host lines that reduce the logits by label and take the loss.

  The region's body loads its two input blocks whole, stores the whole output block once, and keeps nothing between
  points; so the proof data name, after each point, the inputs' staging buffers at their blocks and the output's at the
  one stored value. The lines after the region read the logits and the integer arguments and write only buffers of
  their own, so every argument array ends as launched.
-/

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The host lines around the region -/

/-- The buffers' contents when the region is entered: the launch contents after the seven host lines that normalise
    the batch (the row norms, then the quotient). -/
abbrev V0 (c : Dev nD) : Valuation τ sig (Elt F) := StableHlo.after (List.flatten [hostOps0, hostOps0_1]) (fun b => m (c, b))
/-- The same, read at a TensorCore reference. -/
abbrev V (c : Dev nD) (b : Ref sig .tc) : Buf (Elt F) ((c : Thread nD τ).loc b) := V0 m c (Proc.devRef .tc b)

/-- No host line allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- The lines after the region, stretch by stretch. -/
abbrev tailOps : List (List (HloOp τ sig (Elt F))) := [hostOps1, hostOps1_1, hostOps1_2]

set_option maxHeartbeats 4000000 in
/-- @main is the lines before the region, the region, the lines after it: it reduces to the region continued by the
    later lines, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [hostOps0, hostOps0_1] [hostOps1, hostOps1_1, hostOps1_2]
    (by simp only [List.Forall]; exact ⟨hostOps0_sub, hostOps0_1_sub⟩)
    (by simp only [List.Forall]; exact ⟨hostOps0_fresh, hostOps0_1_fresh⟩) main_chain

/-- The later lines touch only unscoped TensorCore buffers: the pipeline's arrays and the buffers that bypass it. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- They allocate nothing. -/
theorem tail_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- Each later line writes its own result buffer, which is none of the pipeline's three arrays (the normalised batch, the
    bank, the logits). -/
theorem hostOps1_keeps : (hostOps1 : List (HloOp τ sig (Elt F))).Forall fun op =>
    ∀ w, Proc.devRef .tc (Pipeline.arrRef spec0 w) ∉ op.writes := by
  simp only [hostOps1, List.Forall]
  repeat' apply And.intro
  all_goals intro w; fin_cases w <;> simp only [StableHlo.nullary_writes, StableHlo.unary_writes, StableHlo.binary_writes, StableHlo.ternary_writes, Finset.mem_singleton] <;> exact StableHlo.devRef_ne_of_ne (by decide)
theorem hostOps1_1_keeps : (hostOps1_1 : List (HloOp τ sig (Elt F))).Forall fun op =>
    ∀ w, Proc.devRef .tc (Pipeline.arrRef spec0 w) ∉ op.writes := by
  simp only [hostOps1_1, List.Forall]
  repeat' apply And.intro
  all_goals intro w; fin_cases w <;> simp only [StableHlo.nullary_writes, StableHlo.unary_writes, StableHlo.binary_writes, StableHlo.ternary_writes, Finset.mem_singleton] <;> exact StableHlo.devRef_ne_of_ne (by decide)
set_option maxHeartbeats 2000000 in
theorem hostOps1_2_keeps : (hostOps1_2 : List (HloOp τ sig (Elt F))).Forall fun op =>
    ∀ w, Proc.devRef .tc (Pipeline.arrRef spec0 w) ∉ op.writes := by
  simp only [hostOps1_2, List.Forall]
  repeat' apply And.intro
  all_goals intro w; fin_cases w <;> simp only [StableHlo.nullary_writes, StableHlo.unary_writes, StableHlo.binary_writes, StableHlo.ternary_writes, Finset.mem_singleton] <;> exact StableHlo.devRef_ne_of_ne (by decide)

theorem tail_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl
  · exact (List.forall_iff_forall_mem.mp hostOps1_keeps) op hop
  · exact (List.forall_iff_forall_mem.mp hostOps1_1_keeps) op hop
  · exact (List.forall_iff_forall_mem.mp hostOps1_2_keeps) op hop

/-! ## The arguments are written by no host line -/

/-- A reference none of the lines before the region writes is found by the region as launched. -/
theorem V_of_unwritten (c : Dev nD) (b : Ref sig .tc)
    (h : (List.flatten [hostOps0, hostOps0_1] : List (HloOp τ sig (Elt F))).Forall fun op => Proc.devRef .tc b ∉ op.writes) :
    V m c b = m ((c : Thread nD τ).loc b) :=
  StableHlo.after_of_forall_not_mem (b := Proc.devRef .tc b) _ _ (List.forall_iff_forall_mem.mp h)

theorem prefix_keeps_arg (b : Ref sig .tc) (hb : b = main_arg0 ∨ b = main_arg1 ∨ b = main_arg2 ∨ b = main_arg3) :
    (List.flatten [hostOps0, hostOps0_1] : List (HloOp τ sig (Elt F))).Forall fun op => Proc.devRef .tc b ∉ op.writes := by
  simp only [hostOps0, hostOps0_1, List.flatten_cons, List.flatten_nil, List.append_nil, List.cons_append,
    List.nil_append, List.Forall, StableHlo.nullary_writes, StableHlo.unary_writes, StableHlo.binary_writes, StableHlo.ternary_writes, Finset.mem_singleton]
  rcases hb with rfl | rfl | rfl | rfl
  all_goals (repeat' apply And.intro)
  all_goals exact StableHlo.devRef_ne_of_ne (by decide)

theorem V_main_arg0 (c : Dev nD) : V m c main_arg0 = m ((c : Thread nD τ).loc main_arg0) :=
  V_of_unwritten m c main_arg0 (prefix_keeps_arg main_arg0 (.inl rfl))
theorem V_main_arg1 (c : Dev nD) : V m c main_arg1 = m ((c : Thread nD τ).loc main_arg1) :=
  V_of_unwritten m c main_arg1 (prefix_keeps_arg main_arg1 (.inr (.inl rfl)))
theorem V_main_arg2 (c : Dev nD) : V m c main_arg2 = m ((c : Thread nD τ).loc main_arg2) :=
  V_of_unwritten m c main_arg2 (prefix_keeps_arg main_arg2 (.inr (.inr (.inl rfl))))
theorem V_main_arg3 (c : Dev nD) : V m c main_arg3 = m ((c : Thread nD τ).loc main_arg3) :=
  V_of_unwritten m c main_arg3 (prefix_keeps_arg main_arg3 (.inr (.inr (.inr rfl))))

set_option maxHeartbeats 4000000 in
theorem tail_keeps_arg (b : Ref sig .tc) (hb : b = main_arg0 ∨ b = main_arg1 ∨ b = main_arg2 ∨ b = main_arg3) :
    (List.flatten (tailOps : List (List (HloOp τ sig (Elt F))))).Forall fun op => Proc.devRef .tc b ∉ op.writes := by
  simp only [tailOps, hostOps1, hostOps1_1, hostOps1_2, List.flatten_cons, List.flatten_nil, List.append_nil, List.cons_append,
    List.nil_append, List.Forall, StableHlo.nullary_writes, StableHlo.unary_writes, StableHlo.binary_writes, StableHlo.ternary_writes, Finset.mem_singleton]
  rcases hb with rfl | rfl | rfl | rfl
  all_goals (repeat' apply And.intro)
  all_goals exact StableHlo.devRef_ne_of_ne (by decide)

/-- What a buffer holds after the lines that follow the region, for proof data `dats`. -/
abbrev afterTail (dats : (p : Fin 1) → (c : Dev nD) → Dat τ (Elt F) Unit ℕ (UR sig nD τ) ℕ (cfgs p) c) (c : Dev nD) (b : Ref sig .tc) :=
  Pipeline.afterTail₀ cfgs dats 0 (V0 m) tailOps c b

/-- An argument the region stages no window of, and no later line writes, ends as launched. -/
theorem afterTail_of_unwritten (dats : (p : Fin 1) → (c : Dev nD) → Dat τ (Elt F) Unit ℕ (UR sig nD τ) ℕ (cfgs p) c) (c : Dev nD)
    (b : Ref sig .tc) (hb : b = main_arg0 ∨ b = main_arg1 ∨ b = main_arg2 ∨ b = main_arg3) (hw : ∀ w, Pipeline.arrRef spec0 w ≠ b) :
    afterTail m dats c b = m ((c : Thread nD τ).loc b) := by
  unfold afterTail Pipeline.afterTail₀
  rw [StableHlo.after_of_forall_not_mem (b := Proc.devRef .tc b) _ _ (List.forall_iff_forall_mem.mp (tail_keeps_arg b hb)),
    Pipeline.withArrays_of_ne _ c (V0 m c) _ b hw]
  exact V_of_unwritten m c b (prefix_keeps_arg b hb)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The batch's staging buffer holds the whole normalised batch at every point (it is fetched once; its block index never
    moves), for any proof data whose array is the region-entry one and whose body leaves the block in place. -/
theorem before_batch_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The bank's current staging buffer holds tile `t` of the bank at point `t` (fetched at every point). -/
theorem before_bank_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body -/

abbrev rBatch : Rect S256x2048 := Rect.unit (s := S256x2048) ![0, 0] S256x2048.size inb_S256x2048_S256x2048_0_0
abbrev rTile : Rect S1024x2048 := Rect.unit (s := S1024x2048) ![0, 0] S1024x2048.size inb_S1024x2048_S1024x2048_0_0
abbrev rOut : Rect S256x1024 := Rect.unit (s := S256x1024) ![0, 0] S256x1024.size inb_S256x1024_S256x1024_0_0

/-- What the body leaves in the output block's buffer, from the two input blocks: its one store, of the scaled product. -/
def outBlock (x0 : Vec F S256x2048 .f32) (x1 : Vec F S1024x2048 .f32) : Vec F S256x1024 .f32 :=
  View.canon [⟨rOut, k0_pay1 (View.ld x0 rBatch) (View.ld x1 rTile)⟩]

/-- The one store covers the block. -/
theorem cover_out (p0 : Vec F S256x1024 .f32) (y : S256x1024.Idx) :
    ∃ pc ∈ ([⟨rOut, p0⟩] : List (View.Piece (Elt F) S256x1024 .f32)), y ∈ pc.1.set :=
  View.cover_of_tiled [⟨rOut, p0⟩] S256x1024.size (by rfl) y

set_option maxHeartbeats 1000000 in
/-- The body on whole staging buffers, the inputs' at contents `x0`, `x1` and the output's at anything, runs to its end
    holding the inputs' as they were and the output's at `outBlock x0 x1`. -/
theorem sound_kernel (c : Dev nD) (E : Set ℕ) (i : grid0.Coords) (arg1 : Memref sig .tc .vmem S256x2048 .f32) (harg1 : arg1.IsWhole) (arg2 : Memref sig .tc .vmem S1024x2048 .f32) (harg2 : arg2.IsWhole) (arg3 : Memref sig .tc .vmem S256x1024 .f32) (harg3 : arg3.IsWhole)
    (x0 : Vec F S256x2048 .f32) (x1 : Vec F S1024x2048 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outBlock x0 x1)) -∗ K ⟨⟩))
      ⊢ wp frame (wpE (defs₀ (F := F)) Variants.none c none) E (cc0__logits_kernel i arg1 harg1 arg2 harg2 arg3 harg3) K := by
  simp only [cc0__logits_kernel_eq_skeleton]; unfold cc0__logits_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The proof data -/

/-- The proof data of the pipeline on core `c`: the arrays as the region finds them; after the body at point `t` each
    input's buffer at its block and the output's at `outBlock` of the two; the invariant the scoped rest, untouched;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_batch (c : Dev nD) (t : Fin cfg0.N) : (dats m 0 c).after 0 t = iblk m c 0 t := by dsimp only [dats]
theorem after_bank (c : Dev nD) (t : Fin cfg0.N) : (dats m 0 c).after 1 t = iblk m c 1 t := by dsimp only [dats]
theorem after_out (c : Dev nD) (t : Fin cfg0.N) : (dats m 0 c).after 2 t = outBlock (iblk m c 0 t) (iblk m c 1 t) := by dsimp only [dats]

theorem before_batch (c : Dev nD) (t : Fin cfg0.N) (d) : (dats m 0 c).before 0 t d = iblk m c 0 t :=
  before_batch_of m (dats m 0 c) (A_eq m c 0) (after_batch m c) t d
theorem before_bank (c : Dev nD) (t : Fin cfg0.N) (d) : (dats m 0 c).before 1 t d = iblk m c 1 t :=
  before_bank_of m (dats m 0 c) (A_eq m c 1) (after_bank m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_batch, before_bank]
  rw [show (dats m 0 c).Φ t.succ = (dats m 0 c).Φ t.castSucc from rfl,
    show (dats m 0 c).owesAt () t.succ = (dats m 0 c).owesAt () t.castSucc from rfl,
    after_batch, after_bank, after_out]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option maxHeartbeats 4000000 in
set_option backward.isDefEq.respectTransparency.types false in
/-- From any memory with zero counters every weakly fair execution of @main terminates without a fault, each array of
    the pipeline ending at what the proof data compute and every other unscoped buffer as the later lines leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hΦ := fun _ _ => rfl)

/-- THE FRAME: the run ends with every argument array as launched — the bank by the pipeline's own account of an input's
    array, the other three because no window stages them and no later line writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
      ((h c).2 main_arg0 (Pipeline.mem_restRefs_of main_arg0 (by decide) (by decide))).trans
        (afterTail_of_unwritten m (dats m) c main_arg0 (.inl rfl) (by decide)),
      ((h c).2 main_arg1 (Pipeline.mem_restRefs_of main_arg1 (by decide) (by decide))).trans
        (afterTail_of_unwritten m (dats m) c main_arg1 (.inr (.inl rfl)) (by decide)),
      ((h c).1 1).trans (((dats m 0 c).arrAt_in 1 rfl _).trans ((A_eq m c 1).trans (V_main_arg2 m c))),
      ((h c).2 main_arg3 (Pipeline.mem_restRefs_of main_arg3 (by decide) (by decide))).trans
        (afterTail_of_unwritten m (dats m) c main_arg3 (.inr (.inr (.inr rfl))) (by decide))⟩) (run_main m ρ)

end Cert.KernelIdeal.Frame

end
-- ==== Proof.KernelIdealLogits.lean ====
import proofs.«145166_j8186207666549_1_alg».proof.Proof.Gen.KernelIdeal.Skeleton
import Idealize.ShloMosaic.Lib.Pipeline.Value
import Idealize.ShloMosaic.Lib.ValueIdx
import Idealize.ShloMosaic.PureOps.Ideal.Laws
import Idealize.ShloMosaic.PureOps.IdealRules

/-!
  What the region leaves in the logits array, over the extended reals.

  Point `t` of the grid multiplies the whole normalised batch `x` (256 x 2048) by tile `t` of the memory bank `f`
  (rows `1024 t … 1024 t + 1023` of 65536 x 2048), contracting the feature axis of both, and scales by the named
  inverse temperature `c = 268435456 / 13421773`; it writes columns `1024 t … 1024 t + 1023` of the 256 x 65536 result.
  The 64 column blocks tile the result, so after the region entry `(b, n)` holds `(∑ₖ x b k · f n k) · c`.
-/

set_option maxRecDepth 16384

noncomputable section

namespace Cert.KernelIdeal.Logits

open Cert.KernelIdeal Cert.KernelIdeal.Gen
open Idealize.ShloMosaic Idealize.ShloMosaic.TcCoe Idealize.SL.Sem

/-- The inverse temperature the kernel multiplies by: the named constant denotes the exact reciprocal of the reference's
    divisor. -/
def invTemp : EReal := ((268435456 / 13421773 : ℝ) : EReal)

theorem named_invTemp : Named.named (F := Ideal) κ "inv_temp" (φ := .f32) 0x41A00000#32 = invTemp :=
  IdealRules.named_const.ideal_named_scalar _ _ _ _ rfl

/-- Entry `(r, k)` of an array with 2048 columns. -/
abbrev at2048 {n : Nat} (r : Fin n) (k : Fin 2048) : (⟨2, ![n, 2048]⟩ : Shape).Idx := ValueIdx.ix2 r k

/-- The scaled similarity of batch row `b` and bank row `n`. -/
def sim {nb nf : Nat} (x : (⟨2, ![nb, 2048]⟩ : Shape).Idx → EReal) (f : (⟨2, ![nf, 2048]⟩ : Shape).Idx → EReal) (b : Fin nb) (n : Fin nf) : EReal :=
  (∑ k : Fin 2048, x (at2048 b k) * f (at2048 n k)) * invTemp

/-- The logits: entry `(b, n)` is the scaled similarity of batch row `b` and bank row `n`. -/
def logits (x : (⟨S256x2048, .f32⟩ : BufTy).Contents (Elt Ideal)) (f : (⟨S65536x2048, .f32⟩ : BufTy).Contents (Elt Ideal)) :
    (⟨S256x65536, .f32⟩ : BufTy).Contents (Elt Ideal) :=
  fun i => sim (nb := 256) (nf := 65536) x f ⟨(i 0).val, (i 0).isLt⟩ ⟨(i 1).val, (i 1).isLt⟩

/-! ## One point's product -/

abbrev dotTile := dot_S256x2048_S1024x2048_S256x1024_1_1_0_0_n_n

theorem lhs_row (j : S256x1024.Idx) (q : dot_S256x2048_S1024x2048_S256x1024_1_1_0_0_n_n.contr.Idx) :
    (dot_S256x2048_S1024x2048_S256x1024_1_1_0_0_n_n.lhsIdx j q 0).val = (j 0).val := by
  unfold DotDims.lhsIdx
  rw [dif_neg (show ¬(0 : Fin S256x2048.rank) ∈ dot_S256x2048_S1024x2048_S256x1024_1_1_0_0_n_n.lhsBatch by decide), dif_pos (show (0 : Fin S256x2048.rank) ∈ dot_S256x2048_S1024x2048_S256x1024_1_1_0_0_n_n.lhsNonContracting by decide)]
  rfl
theorem lhs_feature (j : S256x1024.Idx) (q : dot_S256x2048_S1024x2048_S256x1024_1_1_0_0_n_n.contr.Idx) :
    (dot_S256x2048_S1024x2048_S256x1024_1_1_0_0_n_n.lhsIdx j q 1).val = (q ⟨0, by decide⟩).val :=
  dot_S256x2048_S1024x2048_S256x1024_1_1_0_0_n_n.lhsIdx_val_of_single rfl j q
theorem rhs_row (j : S256x1024.Idx) (q : dot_S256x2048_S1024x2048_S256x1024_1_1_0_0_n_n.contr.Idx) :
    (dot_S256x2048_S1024x2048_S256x1024_1_1_0_0_n_n.rhsIdx j q 0).val = (j 1).val := by
  unfold DotDims.rhsIdx
  rw [dif_neg (show ¬(0 : Fin S1024x2048.rank) ∈ dot_S256x2048_S1024x2048_S256x1024_1_1_0_0_n_n.rhsBatch by decide), dif_pos (show (0 : Fin S1024x2048.rank) ∈ dot_S256x2048_S1024x2048_S256x1024_1_1_0_0_n_n.rhsNonContracting by decide)]
  rfl
theorem rhs_feature (j : S256x1024.Idx) (q : dot_S256x2048_S1024x2048_S256x1024_1_1_0_0_n_n.contr.Idx) :
    (dot_S256x2048_S1024x2048_S256x1024_1_1_0_0_n_n.rhsIdx j q 1).val = (q ⟨0, by decide⟩).val :=
  dot_S256x2048_S1024x2048_S256x1024_1_1_0_0_n_n.rhsIdx_val_of_single rfl j q

/-- The body's stored value at entry `(p, q)` of the output block: rounding to bf16 is the identity on the extended
    reals and the matrix unit's product into a zero accumulator is the plain sum, so it is the scaled similarity of row `p`
    of the batch block and row `q` of the bank tile. -/
theorem payload_apply (x0 : FVec Ideal S256x2048 .f32) (x1 : FVec Ideal S1024x2048 .f32) (j : S256x1024.Idx) :
    k0_pay1 (F := Ideal) x0 x1 j = sim (nb := 256) (nf := 1024) x0 x1 ⟨(j 0).val, (j 0).isLt⟩ ⟨(j 1).val, (j 1).isLt⟩ := by
  unfold k0_pay1 sim
  show FloatOps.mulf (FloatOps.matmul dot_S256x2048_S1024x2048_S256x1024_1_1_0_0_n_n none _ _ (constant S256x1024 .f32 0x00000000#32) j) (Named.named (F := Ideal) κ "inv_temp" (φ := .f32) 0x41A00000#32) = _
  rw [Ideal.matmul_constant_zero_apply, named_invTemp, ← Equiv.sum_comp (ValueIdx.contrEquiv1 dot_S256x2048_S1024x2048_S256x1024_1_1_0_0_n_n 2048 rfl rfl).symm]
  refine congrArg (· * invTemp) (Finset.sum_congr rfl fun k _ => ?_)
  have hk := ValueIdx.contrEquiv1_symm_val dot_S256x2048_S1024x2048_S256x1024_1_1_0_0_n_n 2048 rfl rfl k
  have el : dot_S256x2048_S1024x2048_S256x1024_1_1_0_0_n_n.lhsIdx j ((ValueIdx.contrEquiv1 dot_S256x2048_S1024x2048_S256x1024_1_1_0_0_n_n 2048 rfl rfl).symm k) = at2048 (n := 256) ⟨(j 0).val, (j 0).isLt⟩ k := funext fun a => Fin.ext (by
    match a with
    | ⟨0, _⟩ => exact lhs_row _ _
    | ⟨1, _⟩ => exact (lhs_feature _ _).trans hk)
  have er : dot_S256x2048_S1024x2048_S256x1024_1_1_0_0_n_n.rhsIdx j ((ValueIdx.contrEquiv1 dot_S256x2048_S1024x2048_S256x1024_1_1_0_0_n_n 2048 rfl rfl).symm k) = at2048 (n := 1024) ⟨(j 1).val, (j 1).isLt⟩ k := funext fun a => Fin.ext (by
    match a with
    | ⟨0, _⟩ => exact rhs_row _ _
    | ⟨1, _⟩ => exact (rhs_feature _ _).trans hk)
  rw [el, er, ValueIdx.truncf_apply, ValueIdx.truncf_apply, shapeCast_self]

end Cert.KernelIdeal.Logits

end
-- ==== Proof.KernelIdealArray.lean ====
import proofs.«145166_j8186207666549_1_alg».proof.Proof.KernelIdealFrame
import proofs.«145166_j8186207666549_1_alg».proof.Proof.KernelIdealLogits
import Idealize.ShloMosaic.Lib.Pipeline.Value

/-!
  From the 64 column blocks to the logits array.

  Window 0 (the normalised batch) sits at block (0, 0) at every point; window 1 (the bank) is at row block `t`; window 2
  (the logits) at column block `t`. So at point `t` entry `(p, q)` of the output block is entry `(p, 1024 t + q)` of the
  array, row `q` of the bank tile is row `1024 t + q` of the bank, and the value stored there is the scaled similarity of
  batch row `p` and bank row `1024 t + q`: block `t` of `logits x f`. Column `n` lies in block `n / 1024`, so the blocks cover
  the array and it ends at `logits x f`.
-/

set_option maxRecDepth 16384

noncomputable section

namespace Cert.KernelIdeal.Logits

open Cert.KernelIdeal Cert.KernelIdeal.Gen Cert.KernelIdeal.Frame
open Idealize.ShloMosaic Idealize.ShloMosaic.TcCoe Idealize.SL.Sem
open Idealize.ShloMosaic.Pipeline (Dat)

variable (m : (ℓ : Loc nD τ sig) → Buf (Elt Ideal) ℓ)

theorem origin_eq : (![0, 0] : Fin 2 → Nat) = fun _ => 0 := funext fun a => by fin_cases a <;> rfl

/-- The three index maps over the grid: the batch never moves, the bank's row block and the logits' column block are the
    point's number. -/
theorem index_maps : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val :=
  (by decide +kernel : ∀ t : Fin grid0.N, _)

/-- Two scaled similarities agree when their rows agree entry by entry. -/
theorem sim_congr {nb nf nb' nf' : Nat} (x : (⟨2, ![nb, 2048]⟩ : Shape).Idx → EReal) (f : (⟨2, ![nf, 2048]⟩ : Shape).Idx → EReal)
    (x' : (⟨2, ![nb', 2048]⟩ : Shape).Idx → EReal) (f' : (⟨2, ![nf', 2048]⟩ : Shape).Idx → EReal)
    (b : Fin nb) (n : Fin nf) (b' : Fin nb') (n' : Fin nf')
    (hx : ∀ k, x (at2048 b k) = x' (at2048 b' k)) (hf : ∀ k, f (at2048 n k) = f' (at2048 n' k)) :
    sim x f b n = sim x' f' b' n' := by
  unfold sim
  exact congrArg (· * invTemp) (Finset.sum_congr rfl fun k _ => by rw [hx k, hf k])

/-- What point `t` writes back is block `t` of `logits` of the normalised batch and the bank as the region finds them. -/
theorem flushed_eq (c : Dev nD) (t : Fin cfg0.N) :
    (dats m 0 c).flushed 2 t = ((cfg0.win 2).blk t).view.read (Elt Ideal) (logits (V m c main_v2) (V m c main_arg2)) := by
  show (cfg0.win 2).cut (grid0.coords t) ((dats m 0 c).after 2 t) = _
  rw [after_out]
  unfold outBlock
  rw [View.canon_unit_zero origin_eq]
  simp only [View.ld_unit_zero (S := S256x2048) origin_eq, View.ld_unit_zero (S := S1024x2048) origin_eq]
  obtain ⟨e0, e1, e2, e3, e4, e5⟩ := index_maps t
  funext j
  show k0_pay1 (F := Ideal) (iblk m c 0 t) (iblk m c 1 t) j = logits (V m c main_v2) (V m c main_arg2) (((cfg0.win 2).blk t).view.emb j)
  refine (payload_apply (iblk m c 0 t) (iblk m c 1 t) j).trans ?_
  unfold logits
  have hj0 : (j 0).val < 256 := (j 0).isLt
  have hj1 : (j 1).val < 1024 := (j 1).isLt
  refine sim_congr (nb := 256) (nf := 1024) (nb' := 256) (nf' := 65536) (iblk m c 0 t) (iblk m c 1 t) (V m c main_v2) (V m c main_arg2) _ _ _ _ (fun k => ?_) (fun k => ?_)
  · show V m c main_v2 (((cfg0.win 0).blk t).view.emb (at2048 (n := 256) ⟨(j 0).val, (j 0).isLt⟩ k)) = _
    refine congrArg (V m c main_v2) (funext fun a => Fin.ext ?_)
    match a with
    | ⟨0, _⟩ => show win0_0.index t (0 : Fin 2) * 256 + 1 * (j 0).val = win0_2.index t (0 : Fin 2) * 256 + 1 * (j 0).val; omega
    | ⟨1, _⟩ => show win0_0.index t (1 : Fin 2) * 2048 + 1 * k.val = k.val; omega
  · show V m c main_arg2 (((cfg0.win 1).blk t).view.emb (at2048 (n := 1024) ⟨(j 1).val, (j 1).isLt⟩ k)) = _
    refine congrArg (V m c main_arg2) (funext fun a => Fin.ext ?_)
    match a with
    | ⟨0, _⟩ => show win0_1.index t (0 : Fin 2) * 1024 + 1 * (j 1).val = win0_2.index t (1 : Fin 2) * 1024 + 1 * (j 1).val; omega
    | ⟨1, _⟩ => show win0_1.index t (1 : Fin 2) * 2048 + 1 * k.val = k.val; omega

/-- An entry of the logits array is in point `t`'s block iff each coordinate is in the block's range on its axis. -/
theorem mem_block (t : Fin cfg0.N) (i : S256x65536.Idx) :
    i ∈ ((cfg0.win 2).blk t).view.set ↔ ∀ a : Fin 2, win0_2.index t a * S256x1024.size a ≤ (i a).val ∧ (i a).val < win0_2.index t a * S256x1024.size a + S256x1024.size a := by
  show i ∈ ((View.whole main_v3).slice (win0_2.rect t)).set ↔ _
  rw [View.set_slice_whole, Rect.mem_set_unit]
  exact Iff.rfl

/-- Column `n` is written at point `n / 1024`: the blocks cover the array. -/
theorem blocks_cover (i : S256x65536.Idx) :
    ∃ t : Fin cfg0.N, (cfg0.win 2).flush t = true ∧ i ∈ ((cfg0.win 2).blk t).view.set := by
  have hi0 : (i 0).val < 256 := (i 0).isLt
  have hi1 : (i 1).val < 65536 := (i 1).isLt
  have ht : (i 1).val / 1024 < cfg0.N := by show (i 1).val / 1024 < 64; omega
  obtain ⟨e0, e1, e2, e3, e4, e5⟩ := index_maps ⟨(i 1).val / 1024, ht⟩
  refine ⟨⟨(i 1).val / 1024, ht⟩, flush0_2 _, ?_⟩
  rw [mem_block]
  intro a
  match a with
  | ⟨0, _⟩ => show win0_2.index ⟨(i 1).val / 1024, ht⟩ (0 : Fin 2) * 256 ≤ (i 0).val ∧ (i 0).val < win0_2.index ⟨(i 1).val / 1024, ht⟩ (0 : Fin 2) * 256 + 256; omega
  | ⟨1, _⟩ => show win0_2.index ⟨(i 1).val / 1024, ht⟩ (1 : Fin 2) * 1024 ≤ (i 1).val ∧ (i 1).val < win0_2.index ⟨(i 1).val / 1024, ht⟩ (1 : Fin 2) * 1024 + 1024; simp only [] at e5; omega

/-- After the region the logits array holds `logits x f`, for `x` the normalised batch and `f` the bank as the region
    finds them. -/
theorem logits_array (c : Dev nD) : (dats m 0 c).arrAt 2 cfg0.N = logits (V m c main_v2) (V m c main_arg2) :=
  (dats m 0 c).arrAt_eq_of_cover 2 _ (fun t _ => flushed_eq m c t) blocks_cover

end Cert.KernelIdeal.Logits

end
-- ==== Proof.KernelIdealHostLines.lean ====
import proofs.«145166_j8186207666549_1_alg».proof.Proof.KernelIdealFrame
import proofs.«145166_j8186207666549_1_alg».proof.Proof.RefRead
import Idealize.ShloMosaic.Lib.StableHlo.Run

/-!
  The host lines around the region compute what the reference's own lines compute.

  Before the region both programs normalise the batch by the same seven lines (row norms, then the quotient). After the
  region the kernel's program transposes the logits and then runs, line for line, the reference's remaining lines: the
  sum of the logits by cluster label, the cluster sizes and the mask of populated clusters, the per-cluster mean, the
  masked softmax over clusters, the logarithm, the gather at each row's target cluster and the negated mean. So whatever
  the transposed logits are, if they are the reference's transposed logits then the two results are the same term of
  them, of the labels and of the indices. None of this depends on what a float is.
-/

set_option maxRecDepth 16384

noncomputable section

namespace Cert.KernelIdeal.HostLines

open Cert.KernelIdeal Cert.KernelIdeal.Gen Cert.KernelIdeal.Frame
open Idealize.ShloMosaic Idealize.ShloMosaic.TcCoe Idealize.SL.Sem Idealize.ShloMosaic.StableHlo

variable {F : FTy → Type} [FloatOps F] [Named F]

/-- The normalised batch the region is handed is the reference's normalised batch of the same argument. -/
theorem normalised_batch (m : (ℓ : Loc nD τ sig) → Buf (Elt F) ℓ) (c : Dev nD) :
    V m c main_v2 = Cert.ReferenceIdeal.ReadP.val_main_v2 (F := F) (m ((c : Thread nD τ).loc main_arg0)) := by
  dsimp only [V, V0]
  simp only [hostOps0, hostOps0_1, List.flatten_cons, List.flatten_nil, List.append_nil, List.cons_append, List.nil_append]
  after_results
  rfl

set_option maxHeartbeats 8000000 in
/-- The lines after the region, run from any contents `W` whose transposed logits are the reference's and whose labels and
    indices are the arguments, leave the reference's result in the result buffer. -/
theorem lines_after (W : Valuation τ sig (Elt F))
    (a0 : (⟨Cert.ReferenceIdeal.S256x2048, .f32⟩ : BufTy).Contents (Elt F)) (a1 : (⟨Cert.ReferenceIdeal.S256, .i32⟩ : BufTy).Contents (Elt F))
    (a2 : (⟨Cert.ReferenceIdeal.S65536x2048, .f32⟩ : BufTy).Contents (Elt F)) (a3 : (⟨Cert.ReferenceIdeal.S65536, .i32⟩ : BufTy).Contents (Elt F))
    (hlogits : transpose S65536x256 [1, 0] (W (Proc.devRef .tc main_v3)) transposes_S256x65536_S65536x256_1_0 = Cert.ReferenceIdeal.ReadP.val_main_v7 (F := F) a0 a2)
    (hidx : W (Proc.devRef .tc main_arg1) = a1) (hlab : W (Proc.devRef .tc main_arg3) = a3) :
    StableHlo.after (List.flatten (tailOps (F := F))) W (Proc.devRef .tc main_v57) = Cert.ReferenceIdeal.ReadP.val_main_v60 (F := F) a0 a1 a2 a3 := by
  subst hidx hlab
  simp only [tailOps, hostOps1, hostOps1_1, hostOps1_2, List.flatten_cons, List.flatten_nil, List.append_nil, List.cons_append, List.nil_append]
  after_results_simp
  rw [hlogits]
  rfl

end Cert.KernelIdeal.HostLines

end
-- ==== Proof.LogitsBridge.lean ====
import proofs.«145166_j8186207666549_1_alg».proof.Proof.KernelIdealLogits
import proofs.«145166_j8186207666549_1_alg».proof.Proof.RefRead

/-!
  The reference's logits are the kernel's.

  The reference divides `x · fᵀ` by the temperature, the single-precision number `13421773 / 268435456`; on the extended
  reals a quotient by a non-zero real is the product with its reciprocal, `268435456 / 13421773`, which is the kernel's
  named inverse temperature. The two sums run over the same feature index of the same entries (the reference reads the
  bank through a transpose).
-/

noncomputable section

namespace Cert.Bridge

open Idealize.ShloMosaic
open Cert.KernelIdeal.Logits

/-- The reference's temperature literal denotes `13421773 / 2^28`. -/
theorem ofBits_temp : Ideal.ofBits .f32 0x3D4CCCCD#32 = ((13421773 / 268435456 : ℝ) : EReal) := by
  simp [Ideal.ofBits, Ideal.ieee, -EReal.coe_mul]; norm_num

/-- Dividing by the temperature is multiplying by the inverse temperature, on every extended real. -/
theorem div_temp (s : EReal) : Ideal.div s (Ideal.ofBits .f32 0x3D4CCCCD#32) = s * invTemp := by
  rw [ofBits_temp, Ideal.div_coe (by norm_num)]
  unfold invTemp
  norm_num

open Cert.ReferenceIdeal.ReadP in
/-- The reference's scaled product `(x · fᵀ) / temperature`, entry by entry, is `logits x f`, for `x` the reference's own
    normalised batch. -/
theorem ref_logits (a0 : (⟨Cert.ReferenceIdeal.S256x2048, .f32⟩ : BufTy).Contents (Elt Ideal))
    (a2 : (⟨Cert.ReferenceIdeal.S65536x2048, .f32⟩ : BufTy).Contents (Elt Ideal)) :
    val_main_v6 (F := Ideal) a0 a2 = logits (val_main_v2 (F := Ideal) a0) a2 := by
  funext i
  rw [val_main_v6_apply, val_main_v4_apply, val_main_v5_apply, val_main_cst_apply]
  simp only [val_main_v3_apply]
  rw [Ideal.hostDivf_def, Ideal.ofBits_def, div_temp]
  unfold logits sim
  refine congrArg (· * invTemp) (Finset.sum_congr rfl fun k _ => ?_)
  have e0 : lidx_main_v4 i k = at2048 (n := 256) ⟨(i 0).val, (i 0).isLt⟩ k := funext fun a => by
    match a with
    | ⟨0, _⟩ => rfl
    | ⟨1, _⟩ => rfl
  have e1 : idx_main_v3 (ridx_main_v4 i k) = at2048 (n := 65536) ⟨(i 1).val, (i 1).isLt⟩ k := funext fun a => by
    match a with
    | ⟨0, _⟩ => rfl
    | ⟨1, _⟩ => rfl
  rw [e0, e1]

end Cert.Bridge

end
-- ==== Proof.KernelIdealResult.lean ====
import proofs.«145166_j8186207666549_1_alg».proof.Proof.KernelIdealArray
import proofs.«145166_j8186207666549_1_alg».proof.Proof.KernelIdealHostLines
import proofs.«145166_j8186207666549_1_alg».proof.Proof.LogitsBridge

/-!
  The idealized kernel's result is the reference's result of the same arguments.

  After the region the logits array holds `logits x f` with `x` the normalised batch and `f` the bank; the reference's
  scaled product of the same `x` and `f` is that array, so the two transposed logits agree, and the lines after the
  region then compute the reference's result from them, the labels and the indices.
-/

noncomputable section

namespace Cert.KernelIdeal.Result

open Cert.KernelIdeal Cert.KernelIdeal.Gen Cert.KernelIdeal.Frame
open Idealize.ShloMosaic Idealize.ShloMosaic.TcCoe Idealize.SL.Sem

variable (m : (ℓ : Loc nD τ sig) → Buf (Elt Ideal) ℓ)

/-- What the result buffer holds after the lines that follow the region: the reference's composed function of the four
    argument arrays as launched. -/
theorem result_eq (c : Dev nD) :
    Pipeline.afterTail₀ cfgs (dats m) 0 (V0 m) tailOps c main_v57
      = Cert.ReferenceIdeal.ReadP.val_main_v60 (F := Ideal) (m ((c : Thread nD τ).loc main_arg0)) (m ((c : Thread nD τ).loc main_arg1))
          (m ((c : Thread nD τ).loc main_arg2)) (m ((c : Thread nD τ).loc main_arg3)) := by
  unfold Pipeline.afterTail₀
  refine HostLines.lines_after (F := Ideal) _ _ _ _ _ ?_ ?_ ?_
  · show transpose S65536x256 [1, 0] (Pipeline.withArrays spec0 c (V0 m c) (fun w => (dats m 0 c).arrAt w cfg0.N) (Proc.devRef .tc (Pipeline.arrRef spec0 2))) transposes_S256x65536_S65536x256_1_0 = _
    rw [Pipeline.withArrays_arr spec0 launch0.win.arr_inj c _ _ 2, Logits.logits_array, HostLines.normalised_batch, V_main_arg2]
    unfold Cert.ReferenceIdeal.ReadP.val_main_v7
    rw [Cert.Bridge.ref_logits]
  · exact (Pipeline.withArrays_of_ne _ c (V0 m c) _ main_arg1 (by decide)).trans (V_main_arg1 m c)
  · exact (Pipeline.withArrays_of_ne _ c (V0 m c) _ main_arg3 (by decide)).trans (V_main_arg3 m c)

end Cert.KernelIdeal.Result

end
-- ==== Proof.lean ====
/-
  The scaled similarities of a batch against a memory bank, reduced by cluster label into a masked softmax loss: the
  kernel computes the 256 x 65536 logits in ONE pipelined region (64 tiles of the bank, each a bf16 product scaled by the
  inverse temperature) between host lines shared with the reference; the reference computes `x · fᵀ / temperature` on the
  host. Over the extended reals rounding to bf16 is the identity, the matrix unit's product is the plain sum, and the
  kernel's inverse temperature is NAMED the exact reciprocal `268435456 / 13421773` of the reference's divisor
  `13421773 / 268435456`, so a quotient by the one is the product with the other on every extended real, infinite ones
  included: no finiteness of the inputs is used. The lines after the logits are the same in both programs and are never
  opened.

  Modules: `KernelFrame` / `KernelIdealFrame` (the frame of the printed program at either reading of a float),
  `KernelIdealLogits` (one point's stored block entry by entry), `KernelIdealArray` (the blocks tile the logits),
  `LogitsBridge` (the reference's logits are the same function), `KernelIdealHostLines` (the shared host lines),
  `KernelIdealResult` (the result buffer), and the reference's run and its reading stage by stage (`RefRun`, `RefRead`).
-/
import proofs.«145166_j8186207666549_1_alg».proof.Defs
import proofs.«145166_j8186207666549_1_alg».proof.Proof.Gen.Kernel
import proofs.«145166_j8186207666549_1_alg».proof.Proof.Gen.KernelIdeal
import proofs.«145166_j8186207666549_1_alg».proof.Proof.Gen.ReferenceIdeal
import proofs.«145166_j8186207666549_1_alg».proof.Proof.Gen.Pre_finite_inputs
import proofs.«145166_j8186207666549_1_alg».proof.Proof.KernelFrame
import proofs.«145166_j8186207666549_1_alg».proof.Proof.KernelIdealResult
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Frame.frame m ρ

theorem frame_kernelIdeal : Cert.frame_KernelIdeal := fun m ρ _ => Cert.KernelIdeal.Frame.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The one rewrite of the idealization: the kernel's `20.0` is named the reciprocal of the reference's temperature. -/
theorem preserves : Cert.preserves_Kernel_KernelIdeal :=
  IdealRules.named_const.statement Cert.KernelIdeal.κ "inv_temp" .f32 0x41A00000#32 ((268435456 / 13421773 : ℝ) : EReal) rfl

/-- Both programs end with the reference's composed function of the argument arrays in their result buffer. -/
theorem algebraic : Cert.algebraic_KernelIdeal_ReferenceIdeal := by
  intro m ρ m' ρ' _ hagree
  refine ⟨fun c => Cert.ReferenceIdeal.ReadP.val_main_v60 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨?_, ?_, ?_, ?_, ?_⟩) (Cert.KernelIdeal.Frame.run_main (F := Ideal) m ρ)
    · exact ((h c).2 Cert.KernelIdeal.main_v57 (Pipeline.mem_restRefs_of Cert.KernelIdeal.main_v57 (by decide) (by decide))).trans
        (Cert.KernelIdeal.Result.result_eq m c)
    · exact ((h c).2 Cert.KernelIdeal.main_arg0 (Pipeline.mem_restRefs_of Cert.KernelIdeal.main_arg0 (by decide) (by decide))).trans
        (Cert.KernelIdeal.Frame.afterTail_of_unwritten m (Cert.KernelIdeal.Frame.dats m) c Cert.KernelIdeal.main_arg0 (.inl rfl) (by decide))
    · exact ((h c).2 Cert.KernelIdeal.main_arg1 (Pipeline.mem_restRefs_of Cert.KernelIdeal.main_arg1 (by decide) (by decide))).trans
        (Cert.KernelIdeal.Frame.afterTail_of_unwritten m (Cert.KernelIdeal.Frame.dats m) c Cert.KernelIdeal.main_arg1 (.inr (.inl rfl)) (by decide))
    · exact ((h c).1 1).trans (((Cert.KernelIdeal.Frame.dats m 0 c).arrAt_in 1 rfl _).trans
        ((Cert.KernelIdeal.Frame.A_eq m c 1).trans (Cert.KernelIdeal.Frame.V_main_arg2 m c)))
    · exact ((h c).2 Cert.KernelIdeal.main_arg3 (Pipeline.mem_restRefs_of Cert.KernelIdeal.main_arg3 (by decide) (by decide))).trans
        (Cert.KernelIdeal.Frame.afterTail_of_unwritten m (Cert.KernelIdeal.Frame.dats m) c Cert.KernelIdeal.main_arg3 (.inr (.inr (.inr rfl))) (by decide))
  · refine (θ_run Cert.ReferenceIdeal.defs _ _).mono (fun _ h c => ⟨?_, (h c).2⟩) (Cert.ReferenceIdeal.ValueP.run (F := Ideal) m' ρ')
    rw [(h c).1, Cert.ReferenceIdeal.ReadP.val_main_v60_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
